-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S512 : Shape := ⟨1, ![512]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S131072x1024 .f32) (main_arg1 : FVec F S512 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S131072x1024 : Shape := ⟨2, ![131072, 1024]⟩
abbrev S512 : Shape := ⟨1, ![512]⟩
abbrev S1x512 : Shape := ⟨2, ![1, 512]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S131072x1024, .f32⟩
  | .hbm, ⟨1, _⟩ => ⟨S512, .f32⟩
  | .hbm, ⟨2, _⟩ => ⟨S1x512, .f32⟩
  | .hbm, ⟨3, _⟩ => ⟨S131072x1024, .f32⟩
  | .local _ .vmem, ⟨0, _⟩ => ⟨S1024x1024, .f32⟩
  | .local _ .vmem, ⟨1, _⟩ => ⟨S1024x1024, .f32⟩
  | .local _ .vmem, ⟨2, _⟩ => ⟨S1x512, .f32⟩
  | .local _ .vmem, ⟨3, _⟩ => ⟨S1024x1024, .f32⟩
  | .local _ .vmem, ⟨4, _⟩ => ⟨S1024x1024, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S512_S1x512 : S512.ShapeCasts S1x512
  inb_S1024x1024_S1024x512_0_0 : ∀ a, (![0, 0] : Fin 2 → Nat) a + S1024x512.size a ≤ S1024x1024.size a
  h_S1024x512 : 0 < S1024x512.numel
  inb_S1024x1024_S1024x512_0_512 : ∀ a, (![0, 512] : Fin 2 → Nat) a + S1024x512.size a ≤ S1024x1024.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S131072x1024.size a
  hwx0_0 : ∀ i : grid0.Coords, EltTy.bits .f32 = 32 ∨ (Rect.block (s := S131072x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S131072x1024.size a
  hwx0_2 : ∀ i : grid0.Coords, EltTy.bits .f32 = 32 ∨ (Rect.block (s := S131072x1024) S1024x1024.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S512 : Shape := ⟨1, ![512]⟩
abbrev S131072x512 : Shape := ⟨2, ![131072, 512]⟩
abbrev S1x512 : Shape := ⟨2, ![1, 512]⟩

abbrev nBuf : Space → Nat
  | .hbm => 10
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S512, .f32⟩
  | .hbm, ⟨2, _⟩ => ⟨S131072x512, .f32⟩
  | .hbm, ⟨3, _⟩ => ⟨S131072x512, .f32⟩
  | .hbm, ⟨4, _⟩ => ⟨S131072x512, .f32⟩
  | .hbm, ⟨5, _⟩ => ⟨S1x512, .f32⟩
  | .hbm, ⟨6, _⟩ => ⟨S131072x512, .f32⟩
  | .hbm, ⟨7, _⟩ => ⟨S131072x512, .f32⟩
  | .hbm, ⟨8, _⟩ => ⟨S131072x512, .f32⟩
  | .hbm, ⟨9, _⟩ => ⟨S131072x1024, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  slices_S131072x1024_S131072x512_0_0 : S131072x1024.Slices ![0, 0] S131072x512
  slices_S131072x1024_S131072x512_0_512 : S131072x1024.Slices ![0, 512] S131072x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  concatenates_S131072x512_S131072x512_S131072x1024_d1 : Shape.Concatenates [S131072x512, S131072x512] S131072x1024 1

variable [Facts₀]

class Facts : Prop extends Facts₀ where

variable [Facts]
-- ==== Proof.Coupling.lean ====
/-
  The map both programs compute, as ONE function of the argument arrays, index by index.

  A row of `pq` is a pair `(p, q)` of two halves of 512 entries: columns `0 … 511` hold `p`, columns `512 … 1023` hold `q`.
  The coupling leaves `q` as it is and shears `p` by it: `p' j = p j + a j · tanh (q j)`. Written over the 1024 columns
  of the row: an entry in a column `j < 512` becomes itself plus `a j` times `tanh` of the entry 512 columns to its
  right, and an entry in a column `j ≥ 512` is kept. Rows do not interact, so the same definition serves an array of
  any number of rows — the whole array, or the rows one grid point sees.

  Nothing here needs the entries to be finite: the map is built from `+`, `·` and `tanh` applied entry by entry, and no
  law of the extended reals is used to relate two arrangements of it.
-/
import Idealize.ShloMosaic.PureOps.Ideal
import Idealize.ShloMosaic.Lib.ValueIdx

noncomputable section

namespace Cert.Coupling

open Idealize.ShloMosaic Idealize.ShloMosaic.ValueIdx

variable {F : FTy → Type} [FloatOps F]

/-- The column of `q` that column `j` of `p` is paired with: 512 to the right. (Reduced modulo 1024 so that it names a
    column for every `j`; where it is used, `j < 512`, it is `j + 512`.) -/
abbrev partner (j : Nat) : Fin 1024 := ⟨(j + 512) % 1024, Nat.mod_lt _ (by decide)⟩

/-- The entry of the row vector `a` that column `j` uses. (Reduced modulo 512; where it is used, `j < 512`, it is `j`.) -/
abbrev scaleCol (j : Nat) : Fin 512 := ⟨j % 512, Nat.mod_lt _ (by decide)⟩

/-- `shear pq a`: over `R` rows of 1024 columns, entry `(r, j)` is `pq (r, j) + a (0, j) · tanh (pq (r, j + 512))` for
    `j < 512`, and `pq (r, j)` for `j ≥ 512`. The scale `a` is a single row of 512 entries. -/
def shear {R : Nat} (pq : FVec F ⟨2, ![R, 1024]⟩ .f32) (a : FVec F ⟨2, ![1, 512]⟩ .f32) : FVec F ⟨2, ![R, 1024]⟩ .f32 :=
  fun i =>
    if (i 1).val < 512 then
      FloatOps.addf (pq i)
        (FloatOps.mulf (a (ix2 (0 : Fin 1) (scaleCol (i 1).val)))
          (FloatOps.tanh (pq (ix2 (⟨(i 0).val, (i 0).isLt⟩ : Fin R) (partner (i 1).val)))))
    else pq i

/-- In a column of the `p` half the entry is sheared. -/
theorem shear_lo {R : Nat} (pq : FVec F ⟨2, ![R, 1024]⟩ .f32) (a : FVec F ⟨2, ![1, 512]⟩ .f32)
    (i : (⟨2, ![R, 1024]⟩ : Shape).Idx) (h : (i 1).val < 512) :
    shear pq a i = FloatOps.addf (pq i)
        (FloatOps.mulf (a (ix2 (0 : Fin 1) (scaleCol (i 1).val)))
          (FloatOps.tanh (pq (ix2 (⟨(i 0).val, (i 0).isLt⟩ : Fin R) (partner (i 1).val))))) := by
  unfold shear; exact if_pos h

/-- In a column of the `q` half the entry is kept. -/
theorem shear_hi {R : Nat} (pq : FVec F ⟨2, ![R, 1024]⟩ .f32) (a : FVec F ⟨2, ![1, 512]⟩ .f32)
    (i : (⟨2, ![R, 1024]⟩ : Shape).Idx) (h : ¬ (i 1).val < 512) : shear pq a i = pq i := by
  unfold shear; exact if_neg h

/-- ROWS DO NOT INTERACT. Let `blk` be some rows of `pq`: `blk y = pq (e y)`, where `e` moves the row by a fixed amount and
    keeps the column. Then the shear of those rows is the same rows of the shear: at `y` both sides decide by the same
    column, and in the left half both add `a`'s entry for that column times `tanh` of the entry in the SAME row, 512
    columns to the right — which `e` carries to the same row of `pq`, 512 columns to the right. -/
theorem shear_rows {R R' : Nat} (pq : FVec F ⟨2, ![R, 1024]⟩ .f32) (blk : FVec F ⟨2, ![R', 1024]⟩ .f32)
    (a : FVec F ⟨2, ![1, 512]⟩ .f32) (e : (⟨2, ![R', 1024]⟩ : Shape).Idx → (⟨2, ![R, 1024]⟩ : Shape).Idx) (base : Nat)
    (he0 : ∀ y, ((e y) 0).val = base + (y 0).val) (he1 : ∀ y, ((e y) 1).val = (y 1).val)
    (hblk : ∀ y, blk y = pq (e y)) (y : (⟨2, ![R', 1024]⟩ : Shape).Idx) :
    shear blk a y = shear pq a (e y) := by
  by_cases h : (y 1).val < 512
  · rw [shear_lo blk a y h, shear_lo pq a (e y) (by rw [he1]; exact h), hblk y, hblk]
    refine congrArg₂ FloatOps.addf rfl (congrArg₂ FloatOps.mulf ?_ (congrArg FloatOps.tanh (congrArg pq ?_)))
    · rw [he1]
    · funext d; apply Fin.ext
      match d with
      | ⟨0, _⟩ => show ((e (ix2 (⟨(y 0).val, (y 0).isLt⟩ : Fin R') (partner (y 1).val))) 0).val = ((e y) 0).val; rw [he0, he0]; rfl
      | ⟨1, _⟩ => show ((e (ix2 (⟨(y 0).val, (y 0).isLt⟩ : Fin R') (partner (y 1).val))) 1).val = ((e y 1).val + 512) % 1024; rw [he1, he1]; rfl
  · rw [shear_hi blk a y h, shear_hi pq a (e y) (by rw [he1]; exact h), hblk y]

end Cert.Coupling

end
-- ==== Proof.BlockValue.lean ====
/-
  What one grid point leaves in its output buffer is the shear of the rows it sees.

  A grid point sees 1024 rows of `pq` (all 1024 columns) and the one row `a`. Its body writes the output buffer in two
  pieces that tile it: the left half, columns `0 … 511`, receives `p + a · tanh q`, where `p` and `q` are the left and
  right halves of the rows seen and `a` is repeated down the rows; the right half, columns `512 … 1023`, receives `q`
  itself. Each piece is the restriction of ONE function of the buffer's index — `Coupling.shear` of the rows seen — to
  its half: on the left half the column is below 512, so the shear adds `a j · tanh` of the entry 512 columns to the
  right, which is the entry of `q` in the same place; on the right half the column is at least 512 and the shear keeps
  the entry. Two pieces that agree with one function and cover the buffer leave that function.
-/
import proofs.«129870_j64175401337015_1_alg».proof.Proof.Gen.KernelIdeal.Frame
import proofs.«129870_j64175401337015_1_alg».proof.Proof.Coupling
import Idealize.ShloMosaic.Lib.Pipeline.Value

noncomputable section

namespace Cert.KernelIdeal.BlockValue

open Cert.KernelIdeal Cert.KernelIdeal.Gen Idealize.ShloMosaic Idealize.ShloMosaic.ValueIdx Cert.Coupling

variable {F : FTy → Type} [FloatOps F]

/-- The zero offsets of a rectangle that is the whole of its shape. -/
theorem off_zero : (![0, 0] : Fin 2 → Nat) = fun _ => 0 := funext fun a => by fin_cases a <;> rfl

/-- THE RIGHT HALF: the piece written to columns `512 … 1023` is the rows' own right half, and there the shear keeps
    every entry (the column, `512 +` the piece's own column, is not below 512). -/
theorem kept_piece (x0 : Vec F S1024x1024 .f32) (x1 : Vec F S1x512 .f32) (x : r0_1.shape.Idx) :
    View.ld x0 r0_1 x = shear (R := 1024) x0 x1 (r0_1.emb x) := by
  have hc : ((r0_1.emb x) 1).val = 512 + 1 * (x 1).val := rfl
  rw [shear_hi x0 x1 (r0_1.emb x) (by omega)]
  rfl

/-- THE LEFT HALF: the piece written to columns `0 … 511` is `p + a · tanh q` entry by entry. At the piece's index
    `(r, j)`, `j < 512`: `p` is the rows' entry `(r, j)`; `a`, one row repeated down the 1024 rows, is its entry `(0, j)`;
    `q` is the rows' entry `(r, 512 + j)` — the partner column of `j`. That is the shear at `(r, j)`. -/
theorem sheared_piece (x0 : Vec F S1024x1024 .f32) (x1 : Vec F S1x512 .f32) (x : r0_0.shape.Idx) :
    k0_pay1 (View.ld x0 r0_0) (View.ld x0 r0_1) (View.ld x1 r0_2) x = shear (R := 1024) x0 x1 (r0_0.emb x) := by
  have hx1 : (x 1).val < 512 := (x 1).isLt
  have hr : ((r0_0.emb x) 0).val = 0 + 1 * (x 0).val := rfl
  have hc : ((r0_0.emb x) 1).val = 0 + 1 * (x 1).val := rfl
  rw [shear_lo x0 x1 (r0_0.emb x) (by omega)]
  unfold k0_pay1
  dsimp only
  show FloatOps.addf _ (FloatOps.mulf _ (FloatOps.tanh _)) = _
  refine congrArg₂ FloatOps.addf rfl (congrArg₂ FloatOps.mulf ?_ (congrArg FloatOps.tanh ?_))
  · -- the scale: the one row of `a`, repeated down the rows, read at column `j`
    refine (broadcastTo_apply _ broadcasts_S1x512_S1024x512 x (ix2 (0 : Fin 1) (⟨(x 1).val, hx1⟩ : Fin 512)) (fun a => match a with
      | ⟨0, _⟩ => by show (0 : Nat) = if (1 : Nat) = 1 then 0 else _; rw [if_pos rfl]
      | ⟨1, _⟩ => by show (x 1).val = if (512 : Nat) = 1 then 0 else (x 1).val; rw [if_neg (by decide)])).trans ?_
    rw [shapeCast_self, View.ld_unit_zero (S := S1x512) off_zero]
    refine congrArg x1 (congrArg (ix2 (0 : Fin 1)) (Fin.ext ?_))
    show (x 1).val = ((r0_0.emb x) 1).val % 512
    omega
  · -- the partner entry: same row, 512 columns to the right
    show x0 (r0_1.emb x) = _
    refine congrArg x0 (funext fun a => Fin.ext ?_)
    match a with
    | ⟨0, _⟩ => show 0 + 1 * (x 0).val = ((r0_0.emb x) 0).val; omega
    | ⟨1, _⟩ => show 512 + 1 * (x 1).val = (((r0_0.emb x) 1).val + 512) % 1024; omega

/-- THE BUFFER AFTER THE BODY is the shear of the rows the point sees: its two pieces tile the buffer and each is the
    shear on its half. -/
theorem out_eq (x0 : Vec F S1024x1024 .f32) (x1 : Vec F S1x512 .f32) :
    out0_2 x0 x1 = shear (R := 1024) x0 x1 := by
  funext y
  unfold out0_2
  refine View.canon_apply_of_pieces (shear (R := 1024) x0 x1) _ ?_ y (cover0_2 _ _ y)
  intro p hp x
  rcases List.mem_cons.mp hp with rfl | hp
  · exact kept_piece x0 x1 x
  · rcases List.mem_cons.mp hp with rfl | hp
    · exact sheared_piece x0 x1 x
    · exact absurd hp List.not_mem_nil

end Cert.KernelIdeal.BlockValue

end
-- ==== Proof.ArrayValue.lean ====
/-
  The whole output array after the kernel's run is the shear of the argument arrays.

  The grid has 128 points. Point `t` sees rows `1024·t … 1024·t + 1023` of `pq` (all 1024 columns), and the one row of
  `a` — the host has laid the 512 entries of `a` out as an array of one row before the region, entry for entry. It writes
  back to the same rows of the output. What it writes is the shear of the rows it sees (`BlockValue.out_eq`), and rows do
  not interact (`Coupling.shear_rows`), so it writes those rows of the shear of the WHOLE `pq`. The 128 blocks of 1024
  rows tile the 131072 rows — row `r` belongs to point `r / 1024` — so every entry of the output is written by exactly
  the point that owns its row, and the array ends holding the shear of `pq` by `a`.
-/
import proofs.«129870_j64175401337015_1_alg».proof.Proof.Gen.KernelIdeal.Value
import proofs.«129870_j64175401337015_1_alg».proof.Proof.BlockValue
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.Coupling
open Idealize.ShloMosaic.Pipeline (Dat)

variable {F : FTy → Type} [FloatOps F]
variable (m : (ℓ : Loc nD τ sig) → Buf (Elt F) ℓ) (ρ : Dev nD → PrngReg)

/-- THE SCALE AS THE REGION FINDS IT: the host's one operation before the region lays the 512 entries of `a` out as one
    row of 512, in order. -/
theorem row_entry (c : Dev nD) :
    (V m c main_v0 : Vec F S1x512 .f32) = shapeCast S1x512 (m ((c : Thread nD τ).loc main_arg1)) shapeCasts_S512_S1x512 := by
  dsimp only [V, hostOps0]; after_results; rfl

/-- The printed index maps, decided once over the 128 points: `pq`'s window and the output's sit at block `(t, 0)`, the
    scale's at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the shear of the arrays as the region finds them: the scale's one block is
    the whole row; the rows seen are `pq`'s rows from `1024·t` on, the very rows the output's block names. -/
theorem flushed_eq (c : Dev nD) (t : Fin cfg0.N) :
    (dats m 0 c).flushed 2 t
      = ((cfg0.win 2).blk t).view.read (Elt F) (shear (R := 131072) (V m c main_arg0) (V m c main_v0)) := by
  rw [Value.flushed2 m c t, BlockValue.out_eq (iblk m c 0 t) (iblk m c 1 t)]
  obtain ⟨e0, e1, e2, e3, e4, e5⟩ := idx_facts t
  have hrow : (iblk m c 1 t : Vec F S1x512 .f32) = V m c main_v0 := by
    funext k
    show V m c main_v0 (((cfg0.win 1).blk t).view.emb k) = V m c main_v0 k
    refine congrArg (V m c main_v0) (funext fun a => Fin.ext ?_)
    match a with
    | ⟨0, _⟩ => show win0_1.index t (0 : Fin 2) * 1 + 1 * (k 0).val = (k 0).val; omega
    | ⟨1, _⟩ => show win0_1.index t (1 : Fin 2) * 512 + 1 * (k 1).val = (k 1).val; omega
  rw [hrow]
  funext y
  show shear (R := 1024) (iblk m c 0 t) (V m c main_v0) y
    = shear (R := 131072) (V m c main_arg0) (V m c main_v0) (((cfg0.win 2).blk t).view.emb y)
  refine shear_rows (V m c main_arg0) (iblk m c 0 t) (V m c main_v0) (fun y => ((cfg0.win 2).blk t).view.emb y)
    (t.val * 1024) (fun y => ?_) (fun y => ?_) (fun y => ?_) y
  · show win0_2.index t (0 : Fin 2) * 1024 + 1 * (y 0).val = t.val * 1024 + (y 0).val; omega
  · show win0_2.index t (1 : Fin 2) * 1024 + 1 * (y 1).val = (y 1).val; omega
  · show V m c main_arg0 (((cfg0.win 0).blk t).view.emb y) = V m c main_arg0 (((cfg0.win 2).blk t).view.emb y)
    refine congrArg (V m c main_arg0) (funext fun a => Fin.ext ?_)
    match a with
    | ⟨0, _⟩ => show win0_0.index t (0 : Fin 2) * 1024 + 1 * (y 0).val = win0_2.index t (0 : Fin 2) * 1024 + 1 * (y 0).val; omega
    | ⟨1, _⟩ => show win0_0.index t (1 : Fin 2) * 1024 + 1 * (y 1).val = win0_2.index t (1 : Fin 2) * 1024 + 1 * (y 1).val; omega

/-- An index of the output is in point `t`'s block iff each coordinate is in the block's range on its axis. -/
theorem mem_blk (t : Fin cfg0.N) (i : S131072x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- THE BLOCKS TILE THE ARRAY: row `r` is in the block of point `r / 1024`, and every column is in every block. -/
theorem covered (i : S131072x1024.Idx) :
    ∃ t : Fin cfg0.N, (cfg0.win 2).flush t = true ∧ i ∈ ((cfg0.win 2).blk t).view.set := by
  have hi0 : (i 0).val < 131072 := (i 0).isLt
  have hi1 : (i 1).val < 1024 := (i 1).isLt
  have hN : grid0.N = 128 := N_0
  have ht : (i 0).val / 1024 < grid0.N := by omega
  obtain ⟨e0, e1, e2, e3, e4, e5⟩ := idx_facts (⟨(i 0).val / 1024, ht⟩ : Fin cfg0.N)
  have e4' : win0_2.index (⟨(i 0).val / 1024, ht⟩ : Fin cfg0.N) (0 : Fin 2) = (i 0).val / 1024 := e4
  refine ⟨⟨(i 0).val / 1024, ht⟩, flush0_2 _, ?_⟩
  rw [mem_blk]
  intro a
  match a with
  | ⟨0, _⟩ =>
    show win0_2.index (⟨(i 0).val / 1024, ht⟩ : Fin cfg0.N) (0 : Fin 2) * 1024 ≤ (i 0).val
      ∧ (i 0).val < win0_2.index (⟨(i 0).val / 1024, ht⟩ : Fin cfg0.N) (0 : Fin 2) * 1024 + 1024
    omega
  | ⟨1, _⟩ =>
    show win0_2.index (⟨(i 0).val / 1024, ht⟩ : Fin cfg0.N) (1 : Fin 2) * 1024 ≤ (i 1).val
      ∧ (i 1).val < win0_2.index (⟨(i 0).val / 1024, ht⟩ : Fin cfg0.N) (1 : Fin 2) * 1024 + 1024
    omega

/-- THE ARRAY AFTER THE RUN is the shear of `pq` by `a` laid out as one row. -/
theorem final (c : Dev nD) :
    (dats m 0 c).arrAt 2 cfg0.N
      = shear (R := 131072) (m ((c : Thread nD τ).loc main_arg0))
          (shapeCast S1x512 (m ((c : Thread nD τ).loc main_arg1)) shapeCasts_S512_S1x512) := by
  have h := (dats m 0 c).arrAt_eq_of_cover 2 (shear (R := 131072) (V m c main_arg0) (V m c main_v0))
    (fun t _ => flushed_eq m c t) covered
  rw [V_main_arg0, row_entry] at h
  exact h

/-- The kernel's run: every weakly fair execution ends with the output array at the shear of the arguments, and the
    arguments unchanged. -/
theorem run : θ_run defs (onTc (τ := τ) (main (F := F))) ⟨m, fun _ => 0, ρ⟩ fun r => ∀ c : Dev nD,
      r.2.mem ((c : Thread nD τ).loc main_v1)
        = shear (R := 131072) (m ((c : Thread nD τ).loc main_arg0))
            (shapeCast S1x512 (m ((c : Thread nD τ).loc main_arg1)) shapeCasts_S512_S1x512)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference's result, at the ideal instance, is the shear of its argument arrays.

  The reference cuts `pq` into its left half `p` (columns `0 … 511`) and right half `q` (columns `512 … 1023`), forms
  `p + a · tanh q` with `a` repeated down the rows, and joins that with `q` along the columns. Read at an index `(r, j)` of
  the joined array: for `j < 512` the entry comes from the first part, at `(r, j)`, and is
  `pq (r, j) + a j · tanh (pq (r, 512 + j))`; for `j ≥ 512` it comes from the second part, at `(r, j − 512)`, which is
  `pq (r, 512 + (j − 512)) = pq (r, j)`. That is `Coupling.shear`, with the scale read as one row of 512: entry `(0, j)` of
  `a` laid out as a row is entry `j` of `a`. The host's `tanh` and the kernel's are one function on the extended reals.
-/
import proofs.«129870_j64175401337015_1_alg».proof.Proof.Gen.ReferenceIdeal.Read
import proofs.«129870_j64175401337015_1_alg».proof.Proof.Coupling
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Coupling

/-- THE SCALE AS ONE ROW: entry `(0, j)` of `a` laid out as a row of 512 is entry `j` of `a` (both are the `j`-th in
    row-major order). -/
theorem row_apply {α : Type} (x1 : S512.Idx → α) (h : S512.ShapeCasts S1x512) (j : Fin 512) (k : S512.Idx)
    (hk : (k 0).val = j.val) : shapeCast S1x512 x1 h (ix2 (0 : Fin 1) j) = x1 k := by
  refine shapeCast_apply x1 h (ix2 (0 : Fin 1) j) k ?_
  rw [Shape.rowMajor_val_one, Shape.rowMajor_val_two]
  show (k 0).val = 0 * 512 + j.val
  omega

/-- THE REFERENCE IS THE SHEAR, index by index, at the ideal instance. -/
theorem result_eq (x0 : (⟨S131072x1024, .f32⟩ : BufTy).Contents (Elt Ideal)) (x1 : (⟨S512, .f32⟩ : BufTy).Contents (Elt Ideal))
    (h : S512.ShapeCasts S1x512) :
    val_main_v7 (F := Ideal) x0 x1 = shear (F := Ideal) (R := 131072) x0 (shapeCast S1x512 x1 h) := by
  funext i
  have hi0 : (i 0).val < 131072 := (i 0).isLt
  have hi1 : (i 1).val < 1024 := (i 1).isLt
  unfold val_main_v7
  by_cases hlo : (i 1).val < 512
  · -- a column of the left half: the first part, at the same coordinates
    rw [shear_lo (F := Ideal) (R := 131072) x0 (shapeCast S1x512 x1 h) i hlo]
    refine (concatenate_pair_apply_left (1 : Fin 2) (val_main_v6 (F := Ideal) x0 x1) (val_main_v1 (F := Ideal) x0)
      concatenates_S131072x512_S131072x512_S131072x1024_d1 i rfl
      (ix2 (⟨(i 0).val, hi0⟩ : Fin 131072) (⟨(i 1).val, hlo⟩ : Fin 512))
      (fun b => match b with | ⟨0, _⟩ => rfl | ⟨1, _⟩ => rfl)).trans ?_
    rw [val_main_v6_apply, val_main_v0_apply, val_main_v5_apply, val_main_v4_apply, val_main_v3_apply,
      val_main_v2_apply, val_main_v1_apply]
    refine congrArg₂ FloatOps.addf (congrArg x0 ?_) (congrArg₂ FloatOps.mulf ?_ ?_)
    · funext d; apply Fin.ext
      match d with
      | ⟨0, _⟩ => rfl
      | ⟨1, _⟩ => rfl
    · refine (row_apply x1 h (scaleCol (i 1).val) _ ?_).symm
      show (i 1).val = (i 1).val % 512
      omega
    · show Ideal.tanh (x0 _) = Ideal.tanh (x0 _)
      refine congrArg Ideal.tanh (congrArg x0 ?_)
      funext d; apply Fin.ext
      match d with
      | ⟨0, _⟩ => rfl
      | ⟨1, _⟩ => show 512 + (i 1).val = ((i 1).val + 512) % 1024; omega
  · -- a column of the right half: the second part, 512 columns to the left
    rw [shear_hi (F := Ideal) (R := 131072) x0 (shapeCast S1x512 x1 h) i hlo]
    refine (concatenate_pair_apply_right (1 : Fin 2) (val_main_v6 (F := Ideal) x0 x1) (val_main_v1 (F := Ideal) x0)
      concatenates_S131072x512_S131072x512_S131072x1024_d1 i rfl rfl
      (ix2 (⟨(i 0).val, hi0⟩ : Fin 131072) (⟨(i 1).val - 512, by omega⟩ : Fin 512))
      (fun b => match b with | ⟨0, _⟩ => fun _ => rfl | ⟨1, _⟩ => fun hne => absurd rfl hne)
      (by show (i 1).val - 512 + 512 = (i 1).val; omega)).trans ?_
    rw [val_main_v1_apply]
    refine congrArg x0 ?_
    funext d; apply Fin.ext
    match d with
    | ⟨0, _⟩ => rfl
    | ⟨1, _⟩ => show 512 + ((i 1).val - 512) = (i 1).val; omega

end Cert.ReferenceIdeal.RefValue

end
-- ==== Proof.lean ====
/-
  The symplectic shear `(p, q) ↦ (p + a · tanh q, q)` over `pq : f32[131072, 1024]` (a row is `p` in columns `0 … 511` and `q` in
  columns `512 … 1023`) and `a : f32[512]`: a kernel that walks the rows in 128 blocks of 1024, writing the left half of
  each block as `p + a · tanh q` and copying the right half, against the reference that slices the two halves, computes
  `p + a · tanh q` on the whole array and joins it with `q`.

  Over the extended reals both compute ONE function of the arguments, `Coupling.shear`: entry `(r, j)` is
  `pq (r, j) + a j · tanh (pq (r, j + 512))` for `j < 512` and `pq (r, j)` for `j ≥ 512`.
    * The kernel: each grid point leaves the shear of the rows it sees in its output buffer (`BlockValue`: the two
      stores are the shear restricted to the two halves of the columns, and they tile the buffer); rows do not interact,
      so that is the same rows of the shear of the whole array; the 128 blocks tile the rows (`ArrayValue`).
    * The reference: the joined array read at a column below 512 is the first part, at or above 512 the second part
      shifted back by 512 (`RefValue`).
  The two sides use the same operations in the same order on the same entries, so no law of the extended reals relates
  them and the inputs' finiteness is never used; `tanh` is one total function on the extended reals for both. The
  kernel's idealization rewrote nothing, so there is nothing to preserve. Each program's frame is its run with the result
  dropped.
-/
import proofs.«129870_j64175401337015_1_alg».proof.Defs
import proofs.«129870_j64175401337015_1_alg».proof.Proof.Gen.Kernel
import proofs.«129870_j64175401337015_1_alg».proof.Proof.Gen.Kernel.Skeleton
import proofs.«129870_j64175401337015_1_alg».proof.Proof.Gen.Kernel.Launch
import proofs.«129870_j64175401337015_1_alg».proof.Proof.Gen.Kernel.Points
import proofs.«129870_j64175401337015_1_alg».proof.Proof.Gen.Kernel.Frame
import proofs.«129870_j64175401337015_1_alg».proof.Proof.Gen.KernelIdeal
import proofs.«129870_j64175401337015_1_alg».proof.Proof.Gen.KernelIdeal.Skeleton
import proofs.«129870_j64175401337015_1_alg».proof.Proof.Gen.KernelIdeal.Launch
import proofs.«129870_j64175401337015_1_alg».proof.Proof.Gen.KernelIdeal.Points
import proofs.«129870_j64175401337015_1_alg».proof.Proof.Gen.KernelIdeal.Frame
import proofs.«129870_j64175401337015_1_alg».proof.Proof.Gen.ReferenceIdeal
import proofs.«129870_j64175401337015_1_alg».proof.Proof.Gen.Pre_finite_inputs
import proofs.«129870_j64175401337015_1_alg».proof.Proof.Gen.KernelIdeal.Value
import proofs.«129870_j64175401337015_1_alg».proof.Proof.Gen.ReferenceIdeal.Run
import proofs.«129870_j64175401337015_1_alg».proof.Proof.Gen.ReferenceIdeal.Read
import proofs.«129870_j64175401337015_1_alg».proof.Proof.ArrayValue
import proofs.«129870_j64175401337015_1_alg».proof.Proof.RefValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  -- the kernel as printed runs, and leaves its arguments alone
  fun m ρ _ => Cert.Kernel.Gen.frame m ρ,
  -- so does its idealization
  fun m ρ _ => Cert.KernelIdeal.Gen.frame m ρ,
  -- and the reference: its run, the result dropped
  fun m ρ _ => (θ_run Cert.ReferenceIdeal.defs _ _).mono (fun _ h c => (h c).2) (Cert.ReferenceIdeal.Value.run (F := Ideal) m ρ),
  -- the idealization rewrote nothing
  trivial,
  -- both runs end at the shear of the arguments
  by
    intro m ρ m' ρ' _ hagree
    refine ⟨_, Cert.KernelIdeal.ArrayValue.run (F := Ideal) m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq,
      Cert.ReferenceIdeal.RefValue.result_eq _ _ Cert.KernelIdeal.Gen.shapeCasts_S512_S1x512, (hagree c).1, (hagree c).2]⟩

end Cert.Proof

end
